-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S1600000 : Shape := ⟨1, ![1600000]⟩
abbrev S256x32 : Shape := ⟨2, ![256, 32]⟩
abbrev S32 : Shape := ⟨1, ![32]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x32 : S_.BroadcastsInDim S256x32 (![] : Fin 0 → Fin S256x32.rank)
  reducesTo_S256x32_S_d0_1 : S256x32.ReducesTo [0, 1] S_
  bcast_S_S32 : S_.BroadcastsInDim S32 (![] : Fin 0 → Fin S32.rank)
  reducesTo_S32_S_d0 : S32.ReducesTo [0] S_

variable [Facts]

def fn {F : FTy → Type} [FloatOps F] (main_arg0 : FVec F S100000x256 .f32) (main_arg1 : IVec S1600000 32) (main_arg2 : IVec S1600000 32) (main_arg3 : FVec F S256x32 .f32) (main_arg4 : FVec F S32 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x32 .f32 := Host.absf main_arg3
  let main_cst_0 : FVec F S_ .f32 := constant S_ .f32 0x7F800000#32
  let main_v5 : FVec F S256x32 .f32 := broadcastInDim S256x32 ![] bcast_S_S256x32 main_cst_0
  let main_v6 : IVec S256x32 1 := cmpf .olt main_v4 main_v5
  let main_c_1 : IVec S_ 1 := constantI S_ 1 1#1
  let main_v7 : IVec S_ 1 := (fun x v => Host.reduce IntOp.andi x v reducesTo_S256x32_S_d0_1 h_S_) main_v6 main_c_1
  let main_v8 : IVec S_ 1 := andi main_v3 main_v7
  let main_v9 : FVec F S32 .f32 := Host.absf main_arg4
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  main_v13
-- ==== Kernel.lean ====
abbrev S100000x256 : Shape := ⟨2, ![100000, 256]⟩
abbrev S1600000 : Shape := ⟨1, ![1600000]⟩
abbrev S256x32 : Shape := ⟨2, ![256, 32]⟩
abbrev S32 : Shape := ⟨1, ![32]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x32 : Shape := ⟨2, ![100000, 32]⟩
abbrev S5000x256 : Shape := ⟨2, ![5000, 256]⟩
abbrev S5000x1 : Shape := ⟨2, ![5000, 1]⟩
abbrev S5000x32 : Shape := ⟨2, ![5000, 32]⟩
abbrev S1600000x32 : Shape := ⟨2, ![1600000, 32]⟩
abbrev S1x32 : Shape := ⟨2, ![1, 32]⟩

abbrev nBuf : Space → Nat
  | .hbm => 41
  | .vmem => 14
  | .smem => 0
  | _ => 0

abbrev bufTy : (tb : Table) → Fin (tcTables nBuf tb) → BufTy
  | .hbm, ⟨0, _⟩ => ⟨S100000x256, .f32⟩
  | .hbm, ⟨1, _⟩ => ⟨S1600000, .i32⟩
  | .hbm, ⟨2, _⟩ => ⟨S1600000, .i32⟩
  | .hbm, ⟨3, _⟩ => ⟨S256x32, .f32⟩
  | .hbm, ⟨4, _⟩ => ⟨S32, .f32⟩
  | .hbm, ⟨5, _⟩ => ⟨S_, .f32⟩
  | .hbm, ⟨6, _⟩ => ⟨S1600000, .f32⟩
  | .hbm, ⟨7, _⟩ => ⟨S_, .f32⟩
  | .hbm, ⟨8, _⟩ => ⟨S100000, .f32⟩
  | .hbm, ⟨9, _⟩ => ⟨S1600000x1, .i32⟩
  | .hbm, ⟨10, _⟩ => ⟨S100000, .f32⟩
  | .hbm, ⟨11, _⟩ => ⟨S_, .f32⟩
  | .hbm, ⟨12, _⟩ => ⟨S_, .f32⟩
  | .hbm, ⟨13, _⟩ => ⟨S100000, .f32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000x1, .f32⟩
  | .hbm, ⟨24, _⟩ => ⟨S100000x1, .f32⟩
  | .hbm, ⟨25, _⟩ => ⟨S100000x32, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x32, .f32⟩
  | .hbm, ⟨35, _⟩ => ⟨S_, .f32⟩
  | .hbm, ⟨36, _⟩ => ⟨S100000x32, .f32⟩
  | .hbm, ⟨37, _⟩ => ⟨S1600000x1, .i32⟩
  | .hbm, ⟨38, _⟩ => ⟨S100000x32, .f32⟩
  | .hbm, ⟨39, _⟩ => ⟨S1x32, .f32⟩
  | .hbm, ⟨40, _⟩ => ⟨S100000x32, .f32⟩
  | .local _ .vmem, ⟨0, _⟩ => ⟨S5000x256, .f32⟩
  | .local _ .vmem, ⟨1, _⟩ => ⟨S5000x256, .f32⟩
  | .local _ .vmem, ⟨2, _⟩ => ⟨S5000x1, .f32⟩
  | .local _ .vmem, ⟨3, _⟩ => ⟨S5000x1, .f32⟩
  | .local _ .vmem, ⟨4, _⟩ => ⟨S256x32, .f32⟩
  | .local _ .vmem, ⟨5, _⟩ => ⟨S5000x32, .f32⟩
  | .local _ .vmem, ⟨6, _⟩ => ⟨S5000x32, .f32⟩
  | .local _ .vmem, ⟨7, _⟩ => ⟨S5000x32, .f32⟩
  | .local _ .vmem, ⟨8, _⟩ => ⟨S5000x32, .f32⟩
  | .local _ .vmem, ⟨9, _⟩ => ⟨S5000x1, .f32⟩
  | .local _ .vmem, ⟨10, _⟩ => ⟨S5000x1, .f32⟩
  | .local _ .vmem, ⟨11, _⟩ => ⟨S1x32, .f32⟩
  | .local _ .vmem, ⟨12, _⟩ => ⟨S5000x32, .f32⟩
  | .local _ .vmem, ⟨13, _⟩ => ⟨S5000x32, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v4 : Ref sig .tc := ⟨.hbm, 14, rfl⟩
abbrev main_cst_2 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_3 : Ref sig .tc := ⟨.hbm, 19, rfl⟩
abbrev main_call1_v0 : Ref sig .tc := ⟨.hbm, 20, rfl⟩
abbrev main_call1_v1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_4 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_5 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x256_S5000x256_0_0 : ∀ a, (![0, 0] : Fin 2 → Nat) a + S5000x256.size a ≤ S5000x256.size a
  h_S5000x256 : 0 < S5000x256.numel
  broadcasts_S5000x1_S5000x256 : S5000x1.Broadcasts S5000x256
  bitsLt_bf16_f32 : FTy.bits .bf16 < FTy.bits .f32
  inb_S256x32_S256x32_0_0 : ∀ a, (![0, 0] : Fin 2 → Nat) a + S256x32.size a ≤ S256x32.size a
  h_S256x32 : 0 < S256x32.numel
  inb_S5000x32_S5000x32_0_0 : ∀ a, (![0, 0] : Fin 2 → Nat) a + S5000x32.size a ≤ S5000x32.size a
  h_S5000x32 : 0 < S5000x32.numel
  bcast_S_S100000x32 : S_.BroadcastsInDim S100000x32 (![] : Fin 0 → Fin S100000x32.rank)
  bcast_S32_S1x32_1 : S32.BroadcastsInDim S1x32 (![1] : Fin 1 → Fin S1x32.rank)
  shapeCasts_S5000x32_S5000x32 : S5000x32.ShapeCasts S5000x32
  broadcasts_S5000x1_S5000x32 : S5000x1.Broadcasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  scatter_S100000_S1600000x1_S1600000_n_0_0_1_wf : ScatterDims.WF S100000 S1600000x1 S1600000 [] [0] [0] 1
  dot_S5000x256_S256x32_S5000x32_1_0_0_1_n_n_wf : DotDims.WF S5000x256 S256x32 S5000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x32.size a ≤ S256x32.size a
  hwx0_2 : ∀ i : grid0.Coords, EltTy.bits .f32 = 32 ∨ (Rect.block (s := S256x32) S256x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x32.size a ≤ S100000x32.size a
  hwx0_3 : ∀ i : grid0.Coords, EltTy.bits .f32 = 32 ∨ (Rect.block (s := S100000x32) S5000x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x32.size a ≤ S100000x32.size a
  hwx1_3 : ∀ i : grid1.Coords, EltTy.bits .f32 = 32 ∨ (Rect.block (s := S100000x32) S5000x32.size (cc1_transform_3 i) (hinb1_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x256_S256x32_S5000x32_1_0_0_1_n_n : DotDims S5000x256 S256x32 S5000x32 where
  lhsContracting := [1]
  rhsContracting := [0]
  lhsNonContracting := [0]
  rhsNonContracting := [1]
  lhsBatch := []
  rhsBatch := []
  wf := dot_S5000x256_S256x32_S5000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S5000x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v21) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v23) S5000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x256 : Shape := ⟨2, ![100000, 256]⟩
abbrev S1600000 : Shape := ⟨1, ![1600000]⟩
abbrev S256x32 : Shape := ⟨2, ![256, 32]⟩
abbrev S32 : Shape := ⟨1, ![32]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x32 : Shape := ⟨2, ![100000, 32]⟩
abbrev S1600000x32 : Shape := ⟨2, ![1600000, 32]⟩
abbrev S1x32 : Shape := ⟨2, ![1, 32]⟩

abbrev nBuf : Space → Nat
  | .hbm => 55
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S1600000, .i32⟩
  | .hbm, ⟨2, _⟩ => ⟨S1600000, .i32⟩
  | .hbm, ⟨3, _⟩ => ⟨S256x32, .f32⟩
  | .hbm, ⟨4, _⟩ => ⟨S32, .f32⟩
  | .hbm, ⟨5, _⟩ => ⟨S_, .f32⟩
  | .hbm, ⟨6, _⟩ => ⟨S1600000, .f32⟩
  | .hbm, ⟨7, _⟩ => ⟨S_, .f32⟩
  | .hbm, ⟨8, _⟩ => ⟨S100000, .f32⟩
  | .hbm, ⟨9, _⟩ => ⟨S1600000x1, .i32⟩
  | .hbm, ⟨10, _⟩ => ⟨S100000, .f32⟩
  | .hbm, ⟨11, _⟩ => ⟨S_, .f32⟩
  | .hbm, ⟨12, _⟩ => ⟨S_, .f32⟩
  | .hbm, ⟨13, _⟩ => ⟨S100000, .f32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S100000x1, .f32⟩
  | .hbm, ⟨19, _⟩ => ⟨S100000x256, .f32⟩
  | .hbm, ⟨20, _⟩ => ⟨S100000x256, .f32⟩
  | .hbm, ⟨21, _⟩ => ⟨S100000x32, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x32, .f32⟩
  | .hbm, ⟨31, _⟩ => ⟨S_, .f32⟩
  | .hbm, ⟨32, _⟩ => ⟨S100000x32, .f32⟩
  | .hbm, ⟨33, _⟩ => ⟨S1600000x1, .i32⟩
  | .hbm, ⟨34, _⟩ => ⟨S100000x32, .f32⟩
  | .hbm, ⟨35, _⟩ => ⟨S_, .f32⟩
  | .hbm, ⟨36, _⟩ => ⟨S100000, .f32⟩
  | .hbm, ⟨37, _⟩ => ⟨S1600000x1, .i32⟩
  | .hbm, ⟨38, _⟩ => ⟨S100000, .f32⟩
  | .hbm, ⟨39, _⟩ => ⟨S_, .f32⟩
  | .hbm, ⟨40, _⟩ => ⟨S_, .f32⟩
  | .hbm, ⟨41, _⟩ => ⟨S100000, .f32⟩
  | .hbm, ⟨42, _⟩ => ⟨S100000, .f32⟩
  | .hbm, ⟨43, _⟩ => ⟨S_, .f32⟩
  | .hbm, ⟨44, _⟩ => ⟨S100000, .f32⟩
  | .hbm, ⟨45, _⟩ => ⟨S100000, .f32⟩
  | .hbm, ⟨46, _⟩ => ⟨S100000x1, .f32⟩
  | .hbm, ⟨47, _⟩ => ⟨S100000x32, .f32⟩
  | .hbm, ⟨48, _⟩ => ⟨S100000x32, .f32⟩
  | .hbm, ⟨49, _⟩ => ⟨S1x32, .f32⟩
  | .hbm, ⟨50, _⟩ => ⟨S100000x32, .f32⟩
  | .hbm, ⟨51, _⟩ => ⟨S100000x32, .f32⟩
  | .hbm, ⟨52, _⟩ => ⟨S_, .f32⟩
  | .hbm, ⟨53, _⟩ => ⟨S100000x32, .f32⟩
  | .hbm, ⟨54, _⟩ => ⟨S100000x32, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v4 : Ref sig .tc := ⟨.hbm, 14, rfl⟩
abbrev main_cst_2 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_call1_v0 : Ref sig .tc := ⟨.hbm, 40, rfl⟩
abbrev main_call1_v1 : Ref sig .tc := ⟨.hbm, 41, rfl⟩
abbrev main_v24 : Ref sig .tc := ⟨.hbm, 42, rfl⟩
abbrev main_cst_7 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_call2_cst : Ref sig .tc := ⟨.hbm, 52, rfl⟩
abbrev main_call2_v0 : Ref sig .tc := ⟨.hbm, 53, rfl⟩
abbrev main_v33 : Ref sig .tc := ⟨.hbm, 54, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1600000x1_S1600000_n_0_0_1_wf : ScatterDims.WF S100000 S1600000x1 S1600000 [] [0] [0] 1
  dot_S100000x256_S256x32_S100000x32_1_0_0_1_n_n_wf : DotDims.WF S100000x256 S256x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x256_S256x32_S100000x32_1_0_0_1_n_n : DotDims S100000x256 S256x32 S100000x32 where
  lhsContracting := [1]
  rhsContracting := [0]
  lhsNonContracting := [0]
  rhsNonContracting := [1]
  lhsBatch := []
  rhsBatch := []
  wf := dot_S100000x256_S256x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

class Facts : Prop extends Facts₀ where

variable [Facts]
-- ==== Proof.Spec.lean ====
/-
  The mathematics both programs compute, stated once over the extended reals.

  A graph convolution with symmetric degree normalisation: with `dₒ(n) ≥ 1` the clipped out-degree of node `n` and
  `dᵢ(n) ≥ 1` its clipped in-degree,

    proj(n, o)  = Σₖ (feat(n, k) · dₒ(n)^(-1/2)) · weight(k, o)          (a 256-term sum)
    out(n, o)   = max (agg(n, o) · dᵢ(n)^(-1/2) + bias(o), 0)

  where `agg` is the edge aggregation of `proj` (gather by source, sum by destination), the same operations in both
  programs. One program writes the inverse square root as `rsqrt d`, the other as the power `d ^ (-1/2)`. On the extended
  reals the two agree at every `d ≥ 1`: at a real `d ≥ 1` both are `(√d)⁻¹`, and at `d = ⊤` both are `0`. They differ
  only at `d ≤ 0`, which a degree clipped below at `1` never is.
-/
import Idealize.ShloMosaic.PureOps.Ideal
import Idealize.ShloMosaic.PureOps.Ideal.Laws
import Idealize.ShloMosaic.Lib.ValueIdx

noncomputable section

namespace Cert.GcnSpec

open Idealize.ShloMosaic Idealize.ShloMosaic.ValueIdx

/-! ## The two constants -/

/-- The pattern of `1.0` denotes `1`. -/
theorem ofBits_one : Ideal.ofBits .f32 0x3F800000#32 = 1 := by
  simp [Ideal.ofBits, Ideal.ieee, -EReal.coe_mul]; norm_num

/-- The pattern of `-0.5` denotes the real `-1/2`. -/
theorem ofBits_neg_half : Ideal.ofBits .f32 0xBF000000#32 = ((-(1 / 2) : ℝ) : EReal) := by
  simp [Ideal.ofBits, Ideal.ieee, -EReal.coe_mul]; norm_num

/-! ## The inverse square root is the power `-1/2` from `1` upwards -/

/-- At every extended real `y ≥ 1`: `rsqrt y = y ^ (-1/2)`. A real `y ≥ 1` is positive, where both sides are `(√y)⁻¹`;
    at `⊤` both are `0`; `⊥` is not `≥ 1`. -/
theorem rsqrt_eq_pow {y : EReal} (hy : 1 ≤ y) : Ideal.rsqrt y = Ideal.pow y (Ideal.ofBits .f32 0xBF000000#32) := by
  rw [ofBits_neg_half]
  induction y using EReal.rec with
  | bot => exact absurd (le_bot_iff.mp hy) (EReal.coe_ne_bot (1 : ℝ))
  | top => simp
  | coe r =>
    have hr : (1 : ℝ) ≤ r := by exact_mod_cast hy
    have hr0 : (0 : ℝ) ≤ r := by linarith
    rw [Ideal.rsqrt_coe, Ideal.pow_coe_coe, if_neg (by linarith), if_neg (by linarith)]
    refine congrArg (fun z : ℝ => (z : EReal)) ?_
    show (Real.sqrt r)⁻¹ = r ^ (-(1 / 2) : ℝ)
    rw [Real.rpow_neg hr0, Real.sqrt_eq_rpow]

/-- A maximum with the constant `1.0` is at least `1`. -/
theorem one_le_max_one (y : EReal) : 1 ≤ max (Ideal.ofBits .f32 0x3F800000#32) y := by
  rw [ofBits_one]; exact le_max_left _ _

/-! ## The two dense stages, index by index -/

abbrev SNx256 : Shape := ⟨2, ![100000, 256]⟩
abbrev SNx1 : Shape := ⟨2, ![100000, 1]⟩
abbrev SNx32 : Shape := ⟨2, ![100000, 32]⟩
abbrev S256x32 : Shape := ⟨2, ![256, 32]⟩
abbrev S1x32 : Shape := ⟨2, ![1, 32]⟩

/-- Entry `(n, o)` of the projection: row `n` of `x`, each entry scaled by `rsqrt` of the row's degree `d(n, 0)`, against
    column `o` of `w`. -/
def projAt (x : FVec Ideal SNx256 .f32) (d : FVec Ideal SNx1 .f32) (w : FVec Ideal S256x32 .f32) (n : Fin 100000) (o : Fin 32) : EReal :=
  ∑ k : Fin 256, (x (ix2 n k) * Ideal.rsqrt (d (ix2 n (0 : Fin 1)))) * w (ix2 k o)

/-- The projection as an array. -/
def proj (x : FVec Ideal SNx256 .f32) (d : FVec Ideal SNx1 .f32) (w : FVec Ideal S256x32 .f32) : FVec Ideal SNx32 .f32 :=
  fun i => projAt x d w ⟨(i 0).val, (i 0).isLt⟩ ⟨(i 1).val, (i 1).isLt⟩

theorem proj_apply (x : FVec Ideal SNx256 .f32) (d : FVec Ideal SNx1 .f32) (w : FVec Ideal S256x32 .f32) (n : Fin 100000) (o : Fin 32) :
    proj x d w (ix2 n o) = projAt x d w n o := rfl

/-- Entry `(n, o)` of the last stage: the aggregate scaled by `rsqrt` of the row's degree, plus the bias of column `o`,
    clamped below at zero. -/
def postAt (r : FVec Ideal SNx32 .f32) (d : FVec Ideal SNx1 .f32) (b : FVec Ideal S1x32 .f32) (n : Fin 100000) (o : Fin 32) : EReal :=
  max (r (ix2 n o) * Ideal.rsqrt (d (ix2 n (0 : Fin 1))) + b (ix2 (0 : Fin 1) o)) (Ideal.ofBits .f32 0x00000000#32)

/-- The last stage as an array. -/
def post (r : FVec Ideal SNx32 .f32) (d : FVec Ideal SNx1 .f32) (b : FVec Ideal S1x32 .f32) : FVec Ideal SNx32 .f32 :=
  fun i => postAt r d b ⟨(i 0).val, (i 0).isLt⟩ ⟨(i 1).val, (i 1).isLt⟩

theorem post_apply (r : FVec Ideal SNx32 .f32) (d : FVec Ideal SNx1 .f32) (b : FVec Ideal S1x32 .f32) (n : Fin 100000) (o : Fin 32) :
    post r d b (ix2 n o) = postAt r d b n o := rfl

end Cert.GcnSpec

end
-- ==== Proof.LibColumns.lean ====
/-
  Layout operations of the "keepdims" kind read at an index, and the index a one-axis reduction sums over.

  A row-wise reduction `[a, b] → [a]` that keeps its axis is printed as the reduction, a cast of the `[a]` result to the
  column `[a, 1]`, and a broadcast of that column back over `[a, b]`. Each lemma reads one of these at an index given by
  its coordinates: the column at `(r, ·)` is the vector at `r`; the broadcast at `(r, c)` is the column at `r`; and the
  indices a reduction along axis 1 (or axis 0) sums over, for the kept coordinate `r`, are `(r, k)` (or `(k, r)`).
-/
import Idealize.ShloMosaic.Lib.Pipeline.Value
import Idealize.ShloMosaic.Lib.ValueLayout
import Idealize.ShloMosaic.PureOps.Ideal.Laws

noncomputable section

namespace Cert.LibColumns

open Idealize.ShloMosaic Idealize.ShloMosaic.ValueIdx

variable {α : Type}

/-- An `[a]` array cast to the column `[a, 1]` reads, at `(r, u)`, the operand at `r`, whatever the unit coordinate. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast to `[a, b]` reads, at `(r, c)`, the column's entry of row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- Reducing axis 1 of `[a, b]`: the kept coordinate `r` with the reduced coordinate `k` put back is `(r, k)`. -/
theorem lift_axis1 {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- Reducing axis 0 of `[a, b]`: the kept coordinate `c` with the reduced coordinate `k` put back is `(k, c)`. -/
theorem lift_axis0 {a b : ℕ} (h : (⟨2, ![a, b]⟩ : Shape).Reduces [0] (⟨1, ![b]⟩ : Shape)) (c : Fin b)
    (k : Fin ((⟨2, ![a, b]⟩ : Shape).size 0)) : h.lift (ix1 c) k = ix2 (⟨k.val, k.isLt⟩ : Fin a) c := by
  funext d; apply Fin.ext
  fin_cases d <;> rfl

/-- A float sum along axis 1 of `[a, b]`, at the ideal values: at `r` it is the sum over the row's `b` entries. -/
theorem rowSum_apply {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (r : Fin a) : multiReduction .add [1] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_axis1 h r k)

/-- A float sum along axis 0 of `[a, b]`, at the ideal values: at `c` it is the sum over the column's `a` entries. -/
theorem colSum_apply {a b : ℕ} {φ : FTy} (src : FVec Ideal ⟨2, ![a, b]⟩ φ) (acc : BitVec φ.bits)
    (h : (⟨2, ![a, b]⟩ : Shape).Reduces [0] (⟨1, ![b]⟩ : Shape)) (hφ : FKind.Formats φ) (hacc : acc = FKind.add.neutral φ hφ)
    (c : Fin b) : multiReduction .add [0] ⟨1, ![b]⟩ src acc h hφ hacc (ix1 c) = ∑ k : Fin a, src (ix2 k c) := by
  refine (Ideal.multiReduction_add_single src acc h hφ hacc (ix1 c)).trans ?_
  exact Finset.sum_congr rfl fun k _ => congrArg src (lift_axis0 h c k)

/-- A float maximum along axis 1 of `[a, b]`, at the ideal values: at `r` it is the fold of `max`, from the accumulator's
    value, over the row's `b` entries. -/
theorem rowMax_apply {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ)
    (r : Fin a) : multiReduction .maximumf [1] ⟨1, ![a]⟩ src acc h hφ hacc (ix1 r)
      = (Finset.univ : Finset (Fin b)).fold max (Ideal.ofBits φ acc) fun k => src (ix2 r k) := by
  refine (Ideal.multiReduction_maximumf_single src acc h hφ hacc (ix1 r)).trans ?_
  have hf : (src ∘ h.lift (ix1 r)) = fun k : Fin b => src (ix2 r k) := funext fun k => congrArg src (lift_axis1 h r k)
  exact congrArg (fun f => Finset.fold max (Ideal.ofBits φ acc) f (Finset.univ : Finset (Fin b))) hf

end Cert.LibColumns

end
-- ==== Proof.Region0Value.lean ====
/-
  What the first dense stage leaves in its output array: the degree-scaled projection of the arrays it was entered with.
-/
import proofs.«155159_j11828339933792_1_alg».proof.Proof.Gen.KernelIdeal.Frame
import proofs.«155159_j11828339933792_1_alg».proof.Proof.Spec
import proofs.«155159_j11828339933792_1_alg».proof.Proof.LibColumns
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.ShloMosaic.ValueIdx Idealize.SL.Sem
open Idealize.ShloMosaic.Pipeline (Dat)

/-! ## The block product at an entry -/

/-- The product's dimension numbers: the left operand's row is the output's row. -/
theorem lhs_row (i : S5000x32.Idx) (q : dot_S5000x256_S256x32_S5000x32_1_0_0_1_n_n.contr.Idx) :
    (dot_S5000x256_S256x32_S5000x32_1_0_0_1_n_n.lhsIdx i q 0).val = (i 0).val := by
  unfold DotDims.lhsIdx
  rw [dif_neg (show ¬(0 : Fin S5000x256.rank) ∈ dot_S5000x256_S256x32_S5000x32_1_0_0_1_n_n.lhsBatch by decide), dif_pos (show (0 : Fin S5000x256.rank) ∈ dot_S5000x256_S256x32_S5000x32_1_0_0_1_n_n.lhsNonContracting by decide)]
  rfl
/-- The left operand's column is the summation index. -/
theorem lhs_col (i : S5000x32.Idx) (q : dot_S5000x256_S256x32_S5000x32_1_0_0_1_n_n.contr.Idx) :
    (dot_S5000x256_S256x32_S5000x32_1_0_0_1_n_n.lhsIdx i q 1).val = (q ⟨0, by decide⟩).val :=
  dot_S5000x256_S256x32_S5000x32_1_0_0_1_n_n.lhsIdx_val_of_single rfl i q
/-- The right operand's row is the summation index. -/
theorem rhs_row (i : S5000x32.Idx) (q : dot_S5000x256_S256x32_S5000x32_1_0_0_1_n_n.contr.Idx) :
    (dot_S5000x256_S256x32_S5000x32_1_0_0_1_n_n.rhsIdx i q 0).val = (q ⟨0, by decide⟩).val :=
  dot_S5000x256_S256x32_S5000x32_1_0_0_1_n_n.rhsIdx_val_of_single rfl i q
/-- The right operand's column is the output's column. -/
theorem rhs_col (i : S5000x32.Idx) (q : dot_S5000x256_S256x32_S5000x32_1_0_0_1_n_n.contr.Idx) :
    (dot_S5000x256_S256x32_S5000x32_1_0_0_1_n_n.rhsIdx i q 1).val = (i 1).val := by
  unfold DotDims.rhsIdx
  rw [dif_neg (show ¬(1 : Fin S256x32.rank) ∈ dot_S5000x256_S256x32_S5000x32_1_0_0_1_n_n.rhsBatch by decide), dif_pos (show (1 : Fin S256x32.rank) ∈ dot_S5000x256_S256x32_S5000x32_1_0_0_1_n_n.rhsNonContracting by decide)]
  rfl

/-- Entry `(p, q)` of what the body stores, from the three blocks it loads: row `p` of the feature block, each entry
    scaled by `rsqrt` of the row's degree, against column `q` of the weights — a 256-term sum (the product starts from a
    zero accumulator, and the narrowing of its operands is the identity on the extended reals). -/
theorem pay_apply (x1 : Vec Ideal S5000x1 .f32) (x0 : Vec Ideal S5000x256 .f32) (x2 : Vec Ideal S256x32 .f32) (p : Fin 5000) (q : Fin 32) :
    k0_pay1 (F := Ideal) x1 x0 x2 (ix2 p q) = ∑ k : Fin 256, (x0 (ix2 p k) * Ideal.rsqrt (x1 (ix2 p (0 : Fin 1)))) * x2 (ix2 k q) := by
  unfold k0_pay1
  refine (Ideal.matmul_constant_zero_apply dot_S5000x256_S256x32_S5000x32_1_0_0_1_n_n none _ _ (ix2 p q)).trans ?_
  rw [← Equiv.sum_comp (contrEquiv1 dot_S5000x256_S256x32_S5000x32_1_0_0_1_n_n 256 rfl rfl).symm]
  refine Finset.sum_congr rfl fun k _ => ?_
  have hk := contrEquiv1_symm_val dot_S5000x256_S256x32_S5000x32_1_0_0_1_n_n 256 rfl rfl k
  have el : dot_S5000x256_S256x32_S5000x32_1_0_0_1_n_n.lhsIdx (ix2 p q) ((contrEquiv1 dot_S5000x256_S256x32_S5000x32_1_0_0_1_n_n 256 rfl rfl).symm k) = ix2 p k := funext fun a => Fin.ext (by
    match a with
    | ⟨0, _⟩ => exact lhs_row _ _
    | ⟨1, _⟩ => exact (lhs_col _ _).trans hk)
  have er : dot_S5000x256_S256x32_S5000x32_1_0_0_1_n_n.rhsIdx (ix2 p q) ((contrEquiv1 dot_S5000x256_S256x32_S5000x32_1_0_0_1_n_n 256 rfl rfl).symm k) = ix2 k q := funext fun a => Fin.ext (by
    match a with
    | ⟨0, _⟩ => exact (rhs_row _ _).trans hk
    | ⟨1, _⟩ => exact rhs_col _ _)
  rw [el, er]
  show x0 (ix2 p k) * broadcastTo S5000x256 (rsqrt (F := Ideal) (φ := .f32) (shapeCast S5000x1 x1 shapeCasts_S5000x1_S5000x1)) broadcasts_S5000x1_S5000x256 (ix2 p k) * x2 (ix2 k q) = _
  refine congrArg (fun z => x0 (ix2 p k) * z * x2 (ix2 k q)) ?_
  refine (Cert.LibColumns.broadcastTo_a1_ab_apply _ broadcasts_S5000x1_S5000x256 p k).trans ?_
  show Ideal.rsqrt (shapeCast S5000x1 x1 shapeCasts_S5000x1_S5000x1 (ix2 p (0 : Fin 1))) = _
  rw [shapeCast_self]

-- the TensorCore's buffer contents when the region is entered (any contents)
variable (V : (c : Dev nD) → (b : Ref sig .tc) → Buf (Elt Ideal) ((c : Thread nD τ).loc b))

/-! ## The blocks of the four arrays at a grid point -/

/-- The offset `(0, 0)` is zero on both axes. -/
theorem hz : (![0, 0] : Fin 2 → Nat) = fun _ => 0 := funext fun a => by fin_cases a <;> rfl

/-- The block indices, decided over the twenty grid points: the features, the degree column and the output move together
    down the rows, one block of rows per point, in their only block of columns; the weights stay at their only block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of point `t`'s block of the features is row `5000·t + p` of the array. -/
theorem blk_feat (c : Dev nD) (t : Fin cfg0.N) (p : Fin 5000) (k : Fin 256) (n : Fin 100000) (hn : n.val = t.val * 5000 + p.val) :
    iblk0 V c 0 t (ix2 p k) = V c main_arg0 (ix2 n k) := by
  obtain ⟨e0, e1, -⟩ := idx_facts t
  show V c main_arg0 (((cfg0.win 0).blk t).view.emb (ix2 p k)) = V c main_arg0 (ix2 n k)
  refine congrArg (V c main_arg0) (funext fun a => Fin.ext ?_)
  match a with
  | ⟨0, _⟩ => show win0_0.index t (0 : Fin 2) * 5000 + 1 * p.val = n.val; omega
  | ⟨1, _⟩ => show win0_0.index t (1 : Fin 2) * 256 + 1 * k.val = k.val; omega

/-- Row `p` of point `t`'s block of the degree column is row `5000·t + p` of the column. -/
theorem blk_deg (c : Dev nD) (t : Fin cfg0.N) (p : Fin 5000) (n : Fin 100000) (hn : n.val = t.val * 5000 + p.val) :
    iblk0 V c 1 t (ix2 p (0 : Fin 1)) = V c main_v9 (ix2 n (0 : Fin 1)) := by
  obtain ⟨-, -, e0, e1, -⟩ := idx_facts t
  show V c main_v9 (((cfg0.win 1).blk t).view.emb (ix2 p (0 : Fin 1))) = V c main_v9 (ix2 n (0 : Fin 1))
  refine congrArg (V c main_v9) (funext fun a => Fin.ext ?_)
  match a with
  | ⟨0, _⟩ => show win0_1.index t (0 : Fin 2) * 5000 + 1 * p.val = n.val; omega
  | ⟨1, _⟩ => show win0_1.index t (1 : Fin 2) * 1 + 1 * 0 = 0; omega

/-- Every point's block of the weights is the whole array. -/
theorem blk_wt (c : Dev nD) (t : Fin cfg0.N) (k : Fin 256) (q : Fin 32) :
    iblk0 V c 2 t (ix2 k q) = V c main_arg3 (ix2 k q) := by
  obtain ⟨-, -, -, -, e0, e1, -⟩ := idx_facts t
  show V c main_arg3 (((cfg0.win 2).blk t).view.emb (ix2 k q)) = V c main_arg3 (ix2 k q)
  refine congrArg (V c main_arg3) (funext fun a => Fin.ext ?_)
  match a with
  | ⟨0, _⟩ => show win0_2.index t (0 : Fin 2) * 256 + 1 * k.val = k.val; omega
  | ⟨1, _⟩ => show win0_2.index t (1 : Fin 2) * 32 + 1 * q.val = q.val; omega

/-! ## What a point writes back -/

/-- What point `t` writes back is block `t` of the projection of the three arrays: entry `(p, q)` of the stored block is
    the 256-term sum over row `5000·t + p` of the features, scaled by that row's degree, against column `q` of the weights. -/
theorem flushed_eq (c : Dev nD) (t : Fin cfg0.N) :
    (dat0 (F := Ideal) V c).flushed 3 t = ((cfg0.win 3).blk t).view.read (Elt Ideal) (Cert.GcnSpec.proj (V c main_arg0) (V c main_v9) (V c main_arg3)) := by
  show (cfg0.win 3).cut (grid0.coords t) ((dat0 V c).after 3 t) = _
  rw [after0_3]
  unfold out0_3
  rw [View.canon_unit_zero hz]
  simp only [View.ld_unit_zero (S := S5000x1) hz, View.ld_unit_zero (S := S5000x256) hz, View.ld_unit_zero (S := S256x32) hz]
  funext j
  revert j
  show ∀ j : S5000x32.Idx, k0_pay1 (F := Ideal) (iblk0 V c 1 t) (iblk0 V c 0 t) (iblk0 V c 2 t) j
    = Cert.GcnSpec.proj (V c main_arg0) (V c main_v9) (V c main_arg3) (((cfg0.win 3).blk t).view.emb j)
  intro j
  obtain ⟨p, q, rfl⟩ : ∃ (p : Fin 5000) (q : Fin 32), j = ix2 p q := ⟨j 0, j 1, eq_ix2 j⟩
  refine (pay_apply _ _ _ p q).trans ?_
  obtain ⟨-, -, -, -, -, -, e0, e1⟩ := idx_facts t
  have ht : t.val < 20 := t.isLt
  have hn : t.val * 5000 + p.val < 100000 := by have := p.isLt; omega
  have hemb : ((cfg0.win 3).blk t).view.emb (ix2 p q) = ix2 (⟨t.val * 5000 + p.val, hn⟩ : Fin 100000) q := funext fun a => Fin.ext (by
    match a with
    | ⟨0, _⟩ => show win0_3.index t (0 : Fin 2) * 5000 + 1 * p.val = t.val * 5000 + p.val; omega
    | ⟨1, _⟩ => show win0_3.index t (1 : Fin 2) * 32 + 1 * q.val = q.val; omega)
  rw [hemb, Cert.GcnSpec.proj_apply]
  unfold Cert.GcnSpec.projAt
  refine Finset.sum_congr rfl fun k _ => ?_
  rw [blk_feat V c t p k ⟨t.val * 5000 + p.val, hn⟩ rfl, blk_deg V c t p ⟨t.val * 5000 + p.val, hn⟩ rfl, blk_wt V c t k q]

/-! ## The twenty blocks tile the output array -/

/-- An index of the output array is in point `t`'s block iff each coordinate is in the block's range on its axis. -/
theorem mem_blk (t : Fin cfg0.N) (i : S100000x32.Idx) :
    i ∈ ((cfg0.win 3).blk t).view.set ↔ ∀ a : Fin 2, win0_3.index t a * S5000x32.size a ≤ (i a).val ∧ (i a).val < win0_3.index t a * S5000x32.size a + S5000x32.size a := by
  show i ∈ ((View.whole main_v11).slice (win0_3.rect t)).set ↔ _
  rw [View.set_slice_whole, Rect.mem_set_unit]
  exact Iff.rfl

/-- Row `r` of the output array is in the block of point `r / 5000`, which is written back. -/
theorem cover (i : S100000x32.Idx) : ∃ t : Fin cfg0.N, (cfg0.win 3).flush t = true ∧ i ∈ ((cfg0.win 3).blk t).view.set := by
  have hi0 : (i 0).val < 100000 := (i 0).isLt
  have hi1 : (i 1).val < 32 := (i 1).isLt
  have hlt : (i 0).val / 5000 < 20 := by omega
  obtain ⟨-, -, -, -, -, -, e0, e1⟩ := idx_facts ⟨(i 0).val / 5000, hlt⟩
  have e0' : win0_3.index ⟨(i 0).val / 5000, hlt⟩ (0 : Fin 2) = (i 0).val / 5000 := e0
  refine ⟨⟨(i 0).val / 5000, hlt⟩, flush0_3 _, ?_⟩
  rw [mem_blk]
  intro a
  match a with
  | ⟨0, _⟩ =>
    show win0_3.index ⟨(i 0).val / 5000, hlt⟩ (0 : Fin 2) * 5000 ≤ (i 0).val ∧ (i 0).val < win0_3.index ⟨(i 0).val / 5000, hlt⟩ (0 : Fin 2) * 5000 + 5000
    omega
  | ⟨1, _⟩ =>
    show win0_3.index ⟨(i 0).val / 5000, hlt⟩ (1 : Fin 2) * 32 ≤ (i 1).val ∧ (i 1).val < win0_3.index ⟨(i 0).val / 5000, hlt⟩ (1 : Fin 2) * 32 + 32
    omega

/-- After all twenty row blocks, the output array of the first region holds `proj` of the three arrays the region read:
    the features, the clipped out-degree column and the weights. -/
theorem final (c : Dev nD) :
    (dat0 (F := Ideal) V c).arrAt 3 cfg0.N = Cert.GcnSpec.proj (V c main_arg0) (V c main_v9) (V c main_arg3) := by
  exact (dat0 V c).arrAt_eq_of_cover 3 _ (fun t _ => flushed_eq V c t) cover

end Cert.KernelIdeal.Region0

end
-- ==== Proof.Region1Value.lean ====
/-
  What the last dense stage leaves in its output array: scale by the in-degree, add the bias, clamp at zero.

  The stage runs over twenty blocks of 5000 rows. At block `t` it reads rows `5000·t … 5000·t + 4999` of the aggregate
  and of the degree column, the one bias row, and writes the same rows of the output. Entry `(p, q)` of the block it writes
  depends on entry `(p, q)` of the aggregate block, entry `(p, 0)` of the degree block and entry `(0, q)` of the bias row,
  so the blocks are the restrictions of one whole-array function, and the twenty blocks tile the 100000 rows.
-/
import proofs.«155159_j11828339933792_1_alg».proof.Proof.Gen.KernelIdeal.Frame
import proofs.«155159_j11828339933792_1_alg».proof.Proof.Spec
import proofs.«155159_j11828339933792_1_alg».proof.Proof.LibColumns
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.ShloMosaic.ValueIdx Idealize.SL.Sem
open Idealize.ShloMosaic.Pipeline (Dat)

-- the TensorCore's buffer contents when the region is entered (any contents)
variable (V : (c : Dev nD) → (b : Ref sig .tc) → Buf (Elt Ideal) ((c : Thread nD τ).loc b))

theorem hz : (![0, 0] : Fin 2 → Nat) = fun _ => 0 := funext fun a => by fin_cases a <;> rfl

/-! ## The body's value at an entry of the block -/

/-- Entry `(p, q)` of what the body stores: the aggregate's entry times `rsqrt` of the row's degree, plus the bias of
    column `q`, clamped below at zero. The column and the row are broadcast over the block, so only their entries
    `(p, 0)` and `(0, q)` are read. -/
theorem pay_apply (x1 : FVec Ideal S5000x1 .f32) (x0 : FVec Ideal S5000x32 .f32) (x2 : FVec Ideal S1x32 .f32) (p : Fin 5000) (q : Fin 32) :
    k1_pay1 (F := Ideal) x1 x0 x2 (ix2 p q)
      = max (x0 (ix2 p q) * Ideal.rsqrt (x1 (ix2 p (0 : Fin 1))) + x2 (ix2 (0 : Fin 1) q)) (Ideal.ofBits .f32 0x00000000#32) := by
  unfold k1_pay1
  simp only [shapeCast_self]
  show max (x0 (ix2 p q) * broadcastTo S5000x32 (rsqrt x1) broadcasts_S5000x1_S5000x32 (ix2 p q)
      + broadcastTo S5000x32 x2 broadcasts_S1x32_S5000x32 (ix2 p q)) (Ideal.ofBits .f32 0x00000000#32) = _
  rw [Cert.LibColumns.broadcastTo_a1_ab_apply, broadcastTo_1b_ab_apply]
  rfl

/-! ## Which rows a block holds -/

/-- The printed index maps over the grid: at point `t` the aggregate, the degree column and the output are at row block
    `t`, the bias row at its only block, and every column block index is zero. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row `p` of block `t` is row `5000·t + p` of the array. -/
def row (t : Fin cfg1.N) (p : Fin 5000) : Fin 100000 :=
  ⟨t.val * 5000 + p.val, by have := lt_of_lt_of_eq t.isLt N_1; have := p.isLt; omega⟩

theorem emb0 (t : Fin cfg1.N) (p : Fin 5000) (q : Fin 32) : ((cfg1.win 0).blk t).view.emb (ix2 p q) = ix2 (row t p) q := by
  obtain ⟨e0, e1, e2, e3, e4, e5, e6, e7⟩ := idx_facts t
  funext a; apply Fin.ext
  match a with
  | ⟨0, _⟩ => show win1_0.index t (0 : Fin 2) * 5000 + 1 * p.val = t.val * 5000 + p.val; omega
  | ⟨1, _⟩ => show win1_0.index t (1 : Fin 2) * 32 + 1 * q.val = q.val; omega

theorem emb1 (t : Fin cfg1.N) (p : Fin 5000) : ((cfg1.win 1).blk t).view.emb (ix2 p (0 : Fin 1)) = ix2 (row t p) (0 : Fin 1) := by
  obtain ⟨e0, e1, e2, e3, e4, e5, e6, e7⟩ := idx_facts t
  funext a; apply Fin.ext
  match a with
  | ⟨0, _⟩ => show win1_1.index t (0 : Fin 2) * 5000 + 1 * p.val = t.val * 5000 + p.val; omega
  | ⟨1, _⟩ => show win1_1.index t (1 : Fin 2) * 1 + 1 * 0 = 0; omega

theorem emb2 (t : Fin cfg1.N) (q : Fin 32) : ((cfg1.win 2).blk t).view.emb (ix2 (0 : Fin 1) q) = ix2 (0 : Fin 1) q := by
  obtain ⟨e0, e1, e2, e3, e4, e5, e6, e7⟩ := idx_facts t
  funext a; apply Fin.ext
  match a with
  | ⟨0, _⟩ => show win1_2.index t (0 : Fin 2) * 1 + 1 * 0 = 0; omega
  | ⟨1, _⟩ => show win1_2.index t (1 : Fin 2) * 32 + 1 * q.val = q.val; omega

theorem emb3 (t : Fin cfg1.N) (p : Fin 5000) (q : Fin 32) : ((cfg1.win 3).blk t).view.emb (ix2 p q) = ix2 (row t p) q := by
  obtain ⟨e0, e1, e2, e3, e4, e5, e6, e7⟩ := idx_facts t
  funext a; apply Fin.ext
  match a with
  | ⟨0, _⟩ => show win1_3.index t (0 : Fin 2) * 5000 + 1 * p.val = t.val * 5000 + p.val; omega
  | ⟨1, _⟩ => show win1_3.index t (1 : Fin 2) * 32 + 1 * q.val = q.val; omega

/-! ## What a point writes back -/

-- the three arrays the region reads, at their literal types (so that the arithmetic on their entries is the extended reals')
abbrev aggArr (c : Dev nD) : FVec Ideal S100000x32 .f32 := V c main_v21
abbrev degArr (c : Dev nD) : FVec Ideal S100000x1 .f32 := V c main_v10
abbrev biasArr (c : Dev nD) : FVec Ideal S1x32 .f32 := V c main_v22

/-- What point `t` writes back is block `t` of `post` of the three arrays the region was entered with. -/
theorem flushed_eq (c : Dev nD) (t : Fin cfg1.N) :
    (dat1 (F := Ideal) V c).flushed 3 t
      = ((cfg1.win 3).blk t).view.read (Elt Ideal) (Cert.GcnSpec.post (V c main_v21) (V c main_v10) (V c main_v22)) := by
  show (cfg1.win 3).cut (grid1.coords t) ((dat1 V c).after 3 t) = _
  rw [after1_3]
  unfold out1_3
  rw [View.canon_unit_zero hz]
  simp only [View.ld_unit_zero (S := S5000x1) hz, View.ld_unit_zero (S := S5000x32) hz, View.ld_unit_zero (S := S1x32) hz]
  funext j
  obtain ⟨p, q, rfl⟩ : ∃ (p : Fin 5000) (q : Fin 32), j = ix2 p q := ⟨j 0, j 1, eq_ix2 j⟩
  refine (pay_apply (iblk1 V c 1 t) (iblk1 V c 0 t) (iblk1 V c 2 t) p q).trans ?_
  show max (aggArr V c (((cfg1.win 0).blk t).view.emb (ix2 p q))
        * Ideal.rsqrt (degArr V c (((cfg1.win 1).blk t).view.emb (ix2 p (0 : Fin 1))))
        + biasArr V c (((cfg1.win 2).blk t).view.emb (ix2 (0 : Fin 1) q))) (Ideal.ofBits .f32 0x00000000#32)
      = Cert.GcnSpec.post (aggArr V c) (degArr V c) (biasArr V c) (((cfg1.win 3).blk t).view.emb (ix2 p q))
  rw [emb0, emb1, emb2, emb3, Cert.GcnSpec.post_apply]
  rfl

/-! ## The blocks tile the array -/

/-- An index of the output array is in point `t`'s block iff each coordinate is in the block's range on its axis. -/
theorem mem_blk (t : Fin cfg1.N) (i : S100000x32.Idx) :
    i ∈ ((cfg1.win 3).blk t).view.set ↔ ∀ a : Fin 2, win1_3.index t a * S5000x32.size a ≤ (i a).val ∧ (i a).val < win1_3.index t a * S5000x32.size a + S5000x32.size a := by
  show i ∈ ((View.whole main_v23).slice (win1_3.rect t)).set ↔ _
  rw [View.set_slice_whole, Rect.mem_set_unit]
  exact Iff.rfl

/-- Every index of the output array is in the block of the point its row falls in, `row / 5000`. -/
theorem cover (i : S100000x32.Idx) : ∃ t : Fin cfg1.N, (cfg1.win 3).flush t = true ∧ i ∈ ((cfg1.win 3).blk t).view.set := by
  have hi0 : (i 0).val < 100000 := (i 0).isLt
  have hi1 : (i 1).val < 32 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨e0, e1, e2, e3, e4, e5, e6, e7⟩ := idx_facts t
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 32 ≤ (i 1).val ∧ (i 1).val < win1_3.index t (1 : Fin 2) * 32 + 32; omega

/-! ## The array after the region -/

/-- After all twenty row blocks, the output array of the second region holds `post` of the three arrays the region read:
    the aggregate, the clipped in-degree column and the bias row. -/
theorem final (c : Dev nD) :
    (dat1 (F := Ideal) V c).arrAt 3 cfg1.N = Cert.GcnSpec.post (V c main_v21) (V c main_v10) (V c main_v22) :=
  (dat1 (F := Ideal) V c).arrAt_eq_of_cover 3 (Cert.GcnSpec.post (V c main_v21) (V c main_v10) (V c main_v22))
    (fun t _ => flushed_eq V c t) (fun i => cover i)

end Cert.KernelIdeal.Region1

end
-- ==== Proof.HostChain.lean ====
/-
  The kernel program between its two dense stages.

  Before the first stage the host computes the two clipped degree columns (a count of the edges at each node, clipped
  below at one, as a column); between the stages it aggregates the projection over the edges (gather the rows at the edge
  sources, sum them at the edge destinations) and lays the bias out as a row. Each array a stage reads is therefore a
  fixed function of the program's five arguments, and the program's result is the last stage of the aggregate of the
  first stage.
-/
import proofs.«155159_j11828339933792_1_alg».proof.Proof.Gen.KernelIdeal.Frame
import proofs.«155159_j11828339933792_1_alg».proof.Proof.Spec
import proofs.«155159_j11828339933792_1_alg».proof.Proof.Region0Value
import proofs.«155159_j11828339933792_1_alg».proof.Proof.Region1Value
import Idealize.ShloMosaic.Lib.StableHlo.Run

set_option maxRecDepth 16384

noncomputable section

namespace Cert.KernelIdeal.HostChain

open Cert.KernelIdeal Cert.KernelIdeal.Gen Idealize.ShloMosaic Idealize.ShloMosaic.TcCoe Idealize.SL.Sem Idealize.ShloMosaic.StableHlo

/-- The clipped degree column of an edge-endpoint array: the number of edges at each node (ones summed at the endpoints),
    clipped below at one, as a `[100000, 1]` column. -/
def clipDeg (idx : (⟨S1600000, .i32⟩ : BufTy).Contents (Elt Ideal)) : (⟨S100000x1, .f32⟩ : BufTy).Contents (Elt Ideal) :=
  broadcastInDim S100000x1 ![0] bcast_S100000_S100000x1_0
    (maximumf (broadcastInDim S100000 ![] bcast_S_S100000 (id (constant (F := Ideal) S_ .f32 0x3F800000#32)))
      (Host.scatterAdd scatter_S100000_S1600000x1_S1600000_n_0_0_1
        (broadcastInDim S100000 ![] bcast_S_S100000 (constant (F := Ideal) S_ .f32 0x00000000#32))
        (broadcastInDim S1600000x1 ![0] bcast_S1600000_S1600000x1_0 idx)
        (broadcastInDim S1600000 ![] bcast_S_S1600000 (constant (F := Ideal) S_ .f32 0x3F800000#32))))

/-- The edge aggregation: the rows of `P` at the edge sources (a negative source counted from the end), summed at the
    edge destinations into a zero array. -/
def agg (P : (⟨S100000x32, .f32⟩ : BufTy).Contents (Elt Ideal)) (src dst : (⟨S1600000, .i32⟩ : BufTy).Contents (Elt Ideal)) :
    (⟨S100000x32, .f32⟩ : BufTy).Contents (Elt Ideal) :=
  Host.scatterAdd scatter_S100000x32_S1600000x1_S1600000x32_1_0_0_1
    (broadcastInDim S100000x32 ![] bcast_S_S100000x32 (constant (F := Ideal) S_ .f32 0x00000000#32))
    (broadcastInDim S1600000x1 ![0] bcast_S1600000_S1600000x1_0 dst)
    (Host.gather gather_S100000x32_S1600000x1_S1600000x32_1_0_n_n_0_1_132 P
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

variable (m : (ℓ : Loc nD τ sig) → Buf (Elt Ideal) ℓ) (ρ : Dev nD → PrngReg)

/-! ## The two calls of the clip function as plain operations

The program's text spells a called function's operations over typed references; over literal references each is the plain
operation on the same buffers. -/

theorem clip0_plain {F : FTy → Type} [FloatOps F] : (hostOps0_1 : List (HloOp τ sig (Elt F)))
    = [ StableHlo.unary main_cst_1 main_call0_v0 (id : (⟨S_, .f32⟩ : BufTy).Contents (Elt F) → (⟨S_, .f32⟩ : BufTy).Contents (Elt F)),
        StableHlo.unary main_call0_v0 main_call0_v1 (broadcastInDim S100000 ![] bcast_S_S100000 : (⟨S_, .f32⟩ : BufTy).Contents (Elt F) → (⟨S100000, .f32⟩ : BufTy).Contents (Elt F)),
        StableHlo.binary main_call0_v1 main_v3 main_v4 (maximumf : (⟨S100000, .f32⟩ : BufTy).Contents (Elt F) → (⟨S100000, .f32⟩ : BufTy).Contents (Elt F) → (⟨S100000, .f32⟩ : BufTy).Contents (Elt F)) ] := rfl

theorem clip1_plain {F : FTy → Type} [FloatOps F] : (hostOps0_3 : List (HloOp τ sig (Elt F)))
    = [ StableHlo.unary main_cst_3 main_call1_v0 (id : (⟨S_, .f32⟩ : BufTy).Contents (Elt F) → (⟨S_, .f32⟩ : BufTy).Contents (Elt F)),
        StableHlo.unary main_call1_v0 main_call1_v1 (broadcastInDim S100000 ![] bcast_S_S100000 : (⟨S_, .f32⟩ : BufTy).Contents (Elt F) → (⟨S100000, .f32⟩ : BufTy).Contents (Elt F)),
        StableHlo.binary main_call1_v1 main_v7 main_v8 (maximumf : (⟨S100000, .f32⟩ : BufTy).Contents (Elt F) → (⟨S100000, .f32⟩ : BufTy).Contents (Elt F) → (⟨S100000, .f32⟩ : BufTy).Contents (Elt F)) ] := rfl

/-! ## What the first stage is entered with -/

/-- No host operation writes an argument: at the first stage's entry each still holds what the program was launched with. -/
theorem W5_arg0 (c : Dev nD) : W5 m ρ c (Proc.devRef .tc main_arg0) = m ((c : Thread nD τ).loc main_arg0) := by
  dsimp only [W5, W4, W3, W2, W1]
  rw [clip0_plain, clip1_plain]
  dsimp only [hostOps0, hostOps0_2, hostOps0_4]
  after_results
  try rfl

theorem W5_arg1 (c : Dev nD) : W5 m ρ c (Proc.devRef .tc main_arg1) = m ((c : Thread nD τ).loc main_arg1) := by
  dsimp only [W5, W4, W3, W2, W1]
  rw [clip0_plain, clip1_plain]
  dsimp only [hostOps0, hostOps0_2, hostOps0_4]
  after_results
  try rfl

theorem W5_arg2 (c : Dev nD) : W5 m ρ c (Proc.devRef .tc main_arg2) = m ((c : Thread nD τ).loc main_arg2) := by
  dsimp only [W5, W4, W3, W2, W1]
  rw [clip0_plain, clip1_plain]
  dsimp only [hostOps0, hostOps0_2, hostOps0_4]
  after_results
  try rfl

theorem W5_arg3 (c : Dev nD) : W5 m ρ c (Proc.devRef .tc main_arg3) = m ((c : Thread nD τ).loc main_arg3) := by
  dsimp only [W5, W4, W3, W2, W1]
  rw [clip0_plain, clip1_plain]
  dsimp only [hostOps0, hostOps0_2, hostOps0_4]
  after_results
  try rfl

theorem W5_arg4 (c : Dev nD) : W5 m ρ c (Proc.devRef .tc main_arg4) = m ((c : Thread nD τ).loc main_arg4) := by
  dsimp only [W5, W4, W3, W2, W1]
  rw [clip0_plain, clip1_plain]
  dsimp only [hostOps0, hostOps0_2, hostOps0_4]
  after_results
  try rfl

/-- The out-degree column is the clipped degree of the edge sources. -/
theorem W5_v9 (c : Dev nD) : W5 m ρ c (Proc.devRef .tc main_v9) = clipDeg (m ((c : Thread nD τ).loc main_arg1)) := by
  dsimp only [W5, W4, W3, W2, W1]
  rw [clip0_plain, clip1_plain]
  dsimp only [hostOps0, hostOps0_2, hostOps0_4]
  after_results
  try rfl

/-- The in-degree column is the clipped degree of the edge destinations. -/
theorem W5_v10 (c : Dev nD) : W5 m ρ c (Proc.devRef .tc main_v10) = clipDeg (m ((c : Thread nD τ).loc main_arg2)) := by
  dsimp only [W5, W4, W3, W2, W1]
  rw [clip0_plain, clip1_plain]
  dsimp only [hostOps0, hostOps0_2, hostOps0_4]
  after_results
  try rfl

/-! ## Across the first stage -/

/-- The first stage writes its output array only: any other buffer holds after it what it held before. -/
theorem W6_keep (c : Dev nD) (b : Ref sig .tc) (hb : ∀ w, Pipeline.arrRef spec0 w ≠ b) :
    W6 m ρ c (Proc.devRef .tc b) = W5 m ρ c (Proc.devRef .tc b) := W6_of_ne m ρ c b hb

/-- After the first stage its output array holds the projection of the features by the weights, scaled by the
    out-degree column. -/
theorem W6_v11 (c : Dev nD) : W6 m ρ c (Proc.devRef .tc main_v11)
    = Cert.GcnSpec.proj (m ((c : Thread nD τ).loc main_arg0)) (clipDeg (m ((c : Thread nD τ).loc main_arg1))) (m ((c : Thread nD τ).loc main_arg3)) := by
  refine (W6_arr m ρ c 3).trans ?_
  rw [Cert.KernelIdeal.Region0.final (V5 m ρ) c]
  show Cert.GcnSpec.proj (W5 m ρ c (Proc.devRef .tc main_arg0)) (W5 m ρ c (Proc.devRef .tc main_v9)) (W5 m ρ c (Proc.devRef .tc main_arg3)) = _
  rw [W5_arg0, W5_v9, W5_arg3]

/-! ## What the second stage is entered with -/

/-- The aggregate: the edge aggregation of whatever the first stage left in its output array. -/
theorem W7_v21 (c : Dev nD) : W7 m ρ c (Proc.devRef .tc main_v21)
    = agg (W6 m ρ c (Proc.devRef .tc main_v11)) (m ((c : Thread nD τ).loc main_arg1)) (m ((c : Thread nD τ).loc main_arg2)) := by
  rw [← W5_arg1 m ρ c, ← W5_arg2 m ρ c, ← W6_keep m ρ c main_arg1 (by decide), ← W6_keep m ρ c main_arg2 (by decide)]
  dsimp only [W7, hostOps1]
  after_results
  try rfl

/-- The in-degree column is untouched since it was computed. -/
theorem W7_v10 (c : Dev nD) : W7 m ρ c (Proc.devRef .tc main_v10) = clipDeg (m ((c : Thread nD τ).loc main_arg2)) := by
  rw [← W5_v10 m ρ c, ← W6_keep m ρ c main_v10 (by decide)]
  dsimp only [W7, hostOps1]
  after_results
  try rfl

/-- The bias laid out as a row. -/
theorem W7_v22 (c : Dev nD) : W7 m ρ c (Proc.devRef .tc main_v22)
    = broadcastInDim S1x32 ![1] bcast_S32_S1x32_1 (m ((c : Thread nD τ).loc main_arg4)) := by
  rw [← W5_arg4 m ρ c, ← W6_keep m ρ c main_arg4 (by decide)]
  dsimp only [W7, hostOps1]
  after_results
  try rfl

/-! ## The program's result -/

/-- The result buffer after the second stage: the last stage of the aggregate of the first stage's projection, with the
    two clipped degree columns and the bias row, all functions of the five arguments. -/
theorem kernel_value (c : Dev nD) :
    W8 m ρ c (Proc.devRef .tc main_v23)
      = Cert.GcnSpec.post
          (agg (Cert.GcnSpec.proj (m ((c : Thread nD τ).loc main_arg0)) (clipDeg (m ((c : Thread nD τ).loc main_arg1))) (m ((c : Thread nD τ).loc main_arg3)))
            (m ((c : Thread nD τ).loc main_arg1)) (m ((c : Thread nD τ).loc main_arg2)))
          (clipDeg (m ((c : Thread nD τ).loc main_arg2)))
          (broadcastInDim S1x32 ![1] bcast_S32_S1x32_1 (m ((c : Thread nD τ).loc main_arg4))) := by
  refine (W8_arr m ρ c 3).trans ?_
  rw [Cert.KernelIdeal.Region1.final (V7 m ρ) c]
  show Cert.GcnSpec.post (W7 m ρ c (Proc.devRef .tc main_v21)) (W7 m ρ c (Proc.devRef .tc main_v10)) (W7 m ρ c (Proc.devRef .tc main_v22)) = _
  rw [W7_v21, W7_v10, W7_v22, W6_v11]

end Cert.KernelIdeal.HostChain

end
-- ==== Proof.RefBridge.lean ====
/-
  The reference's two dense stages are the specification's: its matrix product of the degree-scaled features is `proj`,
  and its scale, bias and clamp is `post`, wherever the degrees are at least one.
-/
import proofs.«155159_j11828339933792_1_alg».proof.Proof.Gen.ReferenceIdeal.Run
import proofs.«155159_j11828339933792_1_alg».proof.Proof.Gen.ReferenceIdeal.Read
import proofs.«155159_j11828339933792_1_alg».proof.Proof.Spec
import Idealize.ShloMosaic.Lib.Pipeline.Value
import Idealize.ShloMosaic.Lib.ValueIdx
import Idealize.ShloMosaic.PureOps.Ideal.Laws

noncomputable section

namespace Cert.ReferenceIdeal.RefBridge

open Cert.ReferenceIdeal Cert.ReferenceIdeal.Gen Idealize.ShloMosaic Idealize.ShloMosaic.TcCoe Idealize.ShloMosaic.ValueIdx Idealize.SL.Sem

/-! ## Reading the broadcasts at an index -/

/-- A scalar spread along the nodes reads the scalar at every node. -/
theorem splat_apply (c : FVec Ideal S_ .f32) (j : S100000.Idx) :
    broadcastInDim S100000 ![] bcast_S_S100000 c j = c (fun a => a.elim0) :=
  broadcastInDim_apply _ bcast_S_S100000 c j (fun a => a.elim0) (fun a => a.elim0)

/-- A scalar spread over the node-by-channel grid reads the scalar at every entry. -/
theorem splat32_apply (c : FVec Ideal S_ .f32) (j : S100000x32.Idx) :
    broadcastInDim S100000x32 ![] bcast_S_S100000x32 c j = c (fun a => a.elim0) :=
  broadcastInDim_apply _ bcast_S_S100000x32 c j (fun a => a.elim0) (fun a => a.elim0)

/-- A per-node vector made into a one-column matrix: entry `(n, 0)` is the vector's entry `n`. -/
theorem col_apply (v : FVec Ideal S100000 .f32) (n : Fin 100000) :
    broadcastInDim S100000x1 ![0] bcast_S100000_S100000x1_0 v (ix2 n (0 : Fin 1)) = v (ix1 n) :=
  broadcastInDim_apply _ bcast_S100000_S100000x1_0 v (ix2 n (0 : Fin 1)) (ix1 n) (fun a => match a with
    | ⟨0, _⟩ => by show n.val = if (100000 : Nat) = 1 then 0 else n.val; rw [if_neg (by decide)])

/-- A one-column matrix repeated across 256 columns: entry `(n, k)` depends on row `n` only. -/
theorem wide256_apply (v : FVec Ideal S100000x1 .f32) (n : Fin 100000) (k : Fin 256) :
    broadcastInDim S100000x256 ![0, 1] bcast_S100000x1_S100000x256_0_1 v (ix2 n k) = v (ix2 n (0 : Fin 1)) :=
  broadcastInDim_apply _ bcast_S100000x1_S100000x256_0_1 v (ix2 n k) (ix2 n (0 : Fin 1)) (fun a => match a with
    | ⟨0, _⟩ => by show n.val = if (100000 : Nat) = 1 then 0 else n.val; rw [if_neg (by decide)]
    | ⟨1, _⟩ => by show 0 = if (1 : Nat) = 1 then 0 else k.val; rw [if_pos rfl])

/-- A one-column matrix repeated across 32 columns: entry `(n, o)` depends on row `n` only. -/
theorem wide32_apply (v : FVec Ideal S100000x1 .f32) (n : Fin 100000) (o : Fin 32) :
    broadcastInDim S100000x32 ![0, 1] bcast_S100000x1_S100000x32_0_1 v (ix2 n o) = v (ix2 n (0 : Fin 1)) :=
  broadcastInDim_apply _ bcast_S100000x1_S100000x32_0_1 v (ix2 n o) (ix2 n (0 : Fin 1)) (fun a => match a with
    | ⟨0, _⟩ => by show n.val = if (100000 : Nat) = 1 then 0 else n.val; rw [if_neg (by decide)]
    | ⟨1, _⟩ => by show 0 = if (1 : Nat) = 1 then 0 else o.val; rw [if_pos rfl])

/-- A one-row matrix repeated down every node: entry `(n, o)` depends on column `o` only. -/
theorem tall32_apply (v : FVec Ideal S1x32 .f32) (n : Fin 100000) (o : Fin 32) :
    broadcastInDim S100000x32 ![0, 1] bcast_S1x32_S100000x32_0_1 v (ix2 n o) = v (ix2 (0 : Fin 1) o) :=
  broadcastInDim_apply _ bcast_S1x32_S100000x32_0_1 v (ix2 n o) (ix2 (0 : Fin 1) o) (fun a => match a with
    | ⟨0, _⟩ => by show 0 = if (1 : Nat) = 1 then 0 else n.val; rw [if_pos rfl]
    | ⟨1, _⟩ => by show o.val = if (32 : Nat) = 1 then 0 else o.val; rw [if_neg (by decide)])

/-! ## The power `-1/2` of a degree at least one is its inverse square root -/

/-- Lane by lane, `D ^ (-1/2)` is `rsqrt D` wherever `D ≥ 1`. -/
theorem pow_apply (D : FVec Ideal S100000 .f32) (hD : ∀ i, 1 ≤ D i) (j : S100000.Idx) :
    Host.powf D (broadcastInDim S100000 ![] bcast_S_S100000 (constant (F := Ideal) S_ .f32 0xBF000000#32)) j
      = Ideal.rsqrt (D j) := by
  show FloatOps.hostPowf (D j) (broadcastInDim S100000 ![] bcast_S_S100000 (constant (F := Ideal) S_ .f32 0xBF000000#32) j) = _
  rw [Ideal.hostPowf_def, splat_apply, constant_apply]
  exact (Cert.GcnSpec.rsqrt_eq_pow (hD j)).symm

/-- The column of scale factors `D ^ (-1/2)` at row `n` is `rsqrt` of the column of degrees at row `n`. -/
theorem scale_col_apply (D : FVec Ideal S100000 .f32) (hD : ∀ i, 1 ≤ D i) (n : Fin 100000) :
    broadcastInDim S100000x1 ![0] bcast_S100000_S100000x1_0
        (Host.powf D (broadcastInDim S100000 ![] bcast_S_S100000 (constant (F := Ideal) S_ .f32 0xBF000000#32))) (ix2 n (0 : Fin 1))
      = Ideal.rsqrt (broadcastInDim S100000x1 ![0] bcast_S100000_S100000x1_0 D (ix2 n (0 : Fin 1))) := by
  rw [col_apply, col_apply, pow_apply D hD]

/-! ## The matrix product at an index -/

/-- Entry `(n, o)` of the product contracting the left operand's columns against the right operand's rows is the
    256-term sum over the shared axis. -/
theorem dot_apply (y0 : FVec Ideal S100000x256 .f32) (x3 : FVec Ideal S256x32 .f32) (n : Fin 100000) (o : Fin 32) :
    Host.dotGeneral dot_S100000x256_S256x32_S100000x32_1_0_0_1_n_n none y0 x3 (ix2 n o) = ∑ k : Fin 256, y0 (ix2 n k) * x3 (ix2 k o) := by
  simp only [Host.dotGeneral]
  rw [Ideal.dotGeneral_apply, ← Equiv.sum_comp (ValueIdx.contrEquiv1 dot_S100000x256_S256x32_S100000x32_1_0_0_1_n_n 256 rfl rfl).symm]
  refine Finset.sum_congr rfl fun k _ => ?_
  have hk := ValueIdx.contrEquiv1_symm_val dot_S100000x256_S256x32_S100000x32_1_0_0_1_n_n 256 rfl rfl k
  have el : dot_S100000x256_S256x32_S100000x32_1_0_0_1_n_n.lhsIdx (ix2 n o) ((ValueIdx.contrEquiv1 dot_S100000x256_S256x32_S100000x32_1_0_0_1_n_n 256 rfl rfl).symm k) = ix2 n k := funext fun a => Fin.ext (by
    match a with
    | ⟨0, _⟩ => exact Read.lhs_main_v10_0 _ _
    | ⟨1, _⟩ => exact (Read.lhs_main_v10_1 _ _).trans hk)
  have er : dot_S100000x256_S256x32_S100000x32_1_0_0_1_n_n.rhsIdx (ix2 n o) ((ValueIdx.contrEquiv1 dot_S100000x256_S256x32_S100000x32_1_0_0_1_n_n 256 rfl rfl).symm k) = ix2 k o := funext fun a => Fin.ext (by
    match a with
    | ⟨0, _⟩ => exact (Read.rhs_main_v10_0 _ _).trans hk
    | ⟨1, _⟩ => exact Read.rhs_main_v10_1 _ _)
  rw [el, er]

/-! ## The three statements -/

/-- A degree clipped below at the constant one is at least one at every node. -/
theorem clip_ge (y : FVec Ideal S100000 .f32) (i : S100000.Idx) :
    1 ≤ maximumf (broadcastInDim S100000 ![] bcast_S_S100000 (id (constant (F := Ideal) S_ .f32 0x3F800000#32))) y i := by
  rw [maximumf_apply, splat_apply]
  exact Cert.GcnSpec.one_le_max_one _

/-- The reference's matrix product of the features scaled by `D ^ (-1/2)` is the projection scaled by `rsqrt D`. -/
theorem dot_eq (x0 : FVec Ideal S100000x256 .f32) (D : FVec Ideal S100000 .f32) (hD : ∀ i, 1 ≤ D i) (x3 : FVec Ideal S256x32 .f32) :
    Host.dotGeneral dot_S100000x256_S256x32_S100000x32_1_0_0_1_n_n none
      (mulf x0 (broadcastInDim S100000x256 ![0, 1] bcast_S100000x1_S100000x256_0_1 (broadcastInDim S100000x1 ![0] bcast_S100000_S100000x1_0
        (Host.powf D (broadcastInDim S100000 ![] bcast_S_S100000 (constant (F := Ideal) S_ .f32 0xBF000000#32)))))) x3
    = Cert.GcnSpec.proj x0 (broadcastInDim S100000x1 ![0] bcast_S100000_S100000x1_0 D) x3 := by
  funext i
  obtain ⟨n, o, rfl⟩ : ∃ (n : Fin 100000) (o : Fin 32), i = ix2 n o := ⟨i 0, i 1, eq_ix2 i⟩
  rw [Cert.GcnSpec.proj_apply, dot_apply]
  unfold Cert.GcnSpec.projAt
  refine Finset.sum_congr rfl fun k _ => ?_
  rw [mulf_apply, wide256_apply, scale_col_apply D hD]

/-- The reference's scale by `D ^ (-1/2)`, bias and clamp is the last stage with `rsqrt D`. -/
theorem tail_eq (R : FVec Ideal S100000x32 .f32) (D : FVec Ideal S100000 .f32) (hD : ∀ i, 1 ≤ D i) (x4 : FVec Ideal S32 .f32) :
    maximumf (addf (mulf R (broadcastInDim S100000x32 ![0, 1] bcast_S100000x1_S100000x32_0_1 (broadcastInDim S100000x1 ![0] bcast_S100000_S100000x1_0
        (Host.powf D (broadcastInDim S100000 ![] bcast_S_S100000 (constant (F := Ideal) S_ .f32 0xBF000000#32))))))
      (broadcastInDim S100000x32 ![0, 1] bcast_S1x32_S100000x32_0_1 (broadcastInDim S1x32 ![1] bcast_S32_S1x32_1 x4)))
      (broadcastInDim S100000x32 ![] bcast_S_S100000x32 (constant (F := Ideal) S_ .f32 0x00000000#32))
    = Cert.GcnSpec.post R (broadcastInDim S100000x1 ![0] bcast_S100000_S100000x1_0 D) (broadcastInDim S1x32 ![1] bcast_S32_S1x32_1 x4) := by
  funext i
  obtain ⟨n, o, rfl⟩ : ∃ (n : Fin 100000) (o : Fin 32), i = ix2 n o := ⟨i 0, i 1, eq_ix2 i⟩
  rw [Cert.GcnSpec.post_apply]
  unfold Cert.GcnSpec.postAt
  rw [maximumf_apply, addf_apply, mulf_apply, wide32_apply, scale_col_apply D hD, tall32_apply, splat32_apply, constant_apply]

end Cert.ReferenceIdeal.RefBridge

end
-- ==== Proof.lean ====
/-
  The certificate: a graph convolution with symmetric degree normalisation, computed by two tiled dense stages around a
  host-side edge aggregation, equals its plain reference over the extended reals.

  Both programs compute, with `dₒ ≥ 1` and `dᵢ ≥ 1` the out- and in-degrees clipped below at one,

    proj(n, o) = Σₖ (feat(n, k) · dₒ(n)^(-1/2)) · weight(k, o),
    out(n, o)  = max (agg(n, o) · dᵢ(n)^(-1/2) + bias(o), 0),

  where `agg` gathers the rows of `proj` at the edge sources and sums them at the edge destinations, by the same
  operations in both programs. The tiled program forms `proj` and `out` twenty row blocks at a time, and writes the inverse
  square root as `rsqrt d`; the reference writes it as the power `d ^ (-1/2)`. The two agree at every `d ≥ 1` of the
  extended reals (at `⊤` both are `0`), and a clipped degree is at least one whatever the edge arrays hold, so no
  assumption on the inputs is used. The matrix product has the same shape on both sides — the features are scaled
  before they are multiplied — so the sums agree term by term and no rearrangement of a sum is needed.

  The pieces: the two stages as whole-array functions (Region0Value, Region1Value), the host operations between them
  (HostChain), the reference's two dense stages as the same functions (RefBridge), and the scalar law (Spec).
-/
import proofs.«155159_j11828339933792_1_alg».proof.Defs
import proofs.«155159_j11828339933792_1_alg».proof.Proof.Gen.Kernel
import proofs.«155159_j11828339933792_1_alg».proof.Proof.Gen.Kernel.Frame
import proofs.«155159_j11828339933792_1_alg».proof.Proof.Gen.KernelIdeal
import proofs.«155159_j11828339933792_1_alg».proof.Proof.Gen.KernelIdeal.Frame
import proofs.«155159_j11828339933792_1_alg».proof.Proof.Gen.ReferenceIdeal
import proofs.«155159_j11828339933792_1_alg».proof.Proof.Gen.ReferenceIdeal.Run
import proofs.«155159_j11828339933792_1_alg».proof.Proof.Gen.Pre_finite_inputs
import proofs.«155159_j11828339933792_1_alg».proof.Proof.RunValue
import proofs.«155159_j11828339933792_1_alg».proof.Proof.HostChain
import proofs.«155159_j11828339933792_1_alg».proof.Proof.RefBridge
import Idealize.ShloMosaic.Adequacy
import Idealize.ShloMosaic.Init

noncomputable section

namespace Cert.Proof

open Idealize.ShloMosaic Idealize.ShloMosaic.TcCoe Idealize.SL.Sem

/-! ## The three runs -/

theorem frame_k : Cert.frame_Kernel := fun m ρ _ => Cert.Kernel.Gen.frame m ρ

theorem frame_ki : Cert.frame_KernelIdeal := fun m ρ _ => Cert.KernelIdeal.Gen.frame m ρ

/-- The reference's run with its result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten when the program was read over the extended reals. -/
theorem preserves : Cert.preserves_Kernel_KernelIdeal := trivial

/-! ## The values -/

open Cert.KernelIdeal Cert.KernelIdeal.HostChain Cert.KernelIdeal.Facts₀ in
/-- The tiled program's run with its result named: the last stage of the aggregate of the projection, as a function of
    the five arguments. -/
theorem kernel_run (m : (ℓ : Loc nD τ sig) → Buf (Elt Ideal) ℓ) (ρ : Dev nD → PrngReg) :
    θ_run (Cert.KernelIdeal.defs (F := Ideal)) (onTc (τ := τ) (Cert.KernelIdeal.main (F := Ideal))) ⟨m, fun _ => 0, ρ⟩ (fun r => ∀ c : Dev nD,
      r.2.mem ((c.tc : Thread nD τ).loc main_v23)
        = Cert.GcnSpec.post
            (agg (Cert.GcnSpec.proj (m ((c : Thread nD τ).loc main_arg0)) (clipDeg (m ((c : Thread nD τ).loc main_arg1))) (m ((c : Thread nD τ).loc main_arg3)))
              (m ((c : Thread nD τ).loc main_arg1)) (m ((c : Thread nD τ).loc main_arg2)))
            (clipDeg (m ((c : Thread nD τ).loc main_arg2)))
            (broadcastInDim S1x32 ![1] bcast_S32_S1x32_1 (m ((c : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run Cert.KernelIdeal.defs _ _).mono (fun r h c => ⟨(h c).1.trans (kernel_value m ρ c), (h c).2⟩)
    (Cert.KernelIdeal.RunValue.run_value (F := Ideal) m ρ)

/-- Both programs end with the same result array: the reference's product of the scaled features is the projection and
    its scale, bias and clamp is the last stage, the clipped degrees being at least one; what lies between is the same
    aggregation of the same array. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  rw [Cert.ReferenceIdeal.RefBridge.dot_eq _ _ (Cert.ReferenceIdeal.RefBridge.clip_ge _),
    Cert.ReferenceIdeal.RefBridge.tail_eq _ _ (Cert.ReferenceIdeal.RefBridge.clip_ge _)]
  rfl

end Cert.Proof

/-- The certificate's claim: the programs' stated facts witnessed, the three runs, the idealization, and the equal results. -/
theorem Cert.Proof.claim : Cert.Claim :=
  ⟨Cert.Kernel.Gen.facts, Cert.KernelIdeal.Gen.facts, Cert.ReferenceIdeal.Gen.facts, Cert.Pre_finite_inputs.Gen.facts,
    Cert.Proof.frame_k, Cert.Proof.frame_ki, Cert.Proof.frame_ri, Cert.Proof.preserves, Cert.Proof.algebraic⟩

end
